-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1000 : Shape := ⟨2, ![262144, 1000]⟩
abbrev S262144 : Shape := ⟨1, ![262144]⟩
abbrev S_ : Shape := ⟨0, ![]⟩

class Facts : Prop where
  bcast_S_S262144x1000 : S_.BroadcastsInDim S262144x1000 (![] : Fin 0 → Fin S262144x1000.rank)
  reducesTo_S262144x1000_S_d0_1 : S262144x1000.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x1000 .f32) (main_arg1 : IVec S262144 32) : IVec S_ 1 :=
  let main_v0 : FVec F S262144x1000 .f32 := Host.absf main_arg0
  let main_cst : FVec F S_ .f32 := constant S_ .f32 0x7F800000#32
  let main_v1 : FVec F S262144x1000 .f32 := broadcastInDim S262144x1000 ![] bcast_S_S262144x1000 main_cst
  let main_v2 : IVec S262144x1000 1 := cmpf .olt main_v0 main_v1
  let main_c : IVec S_ 1 := constantI S_ 1 1#1
  let main_v3 : IVec S_ 1 := (fun x v => Host.reduce IntOp.andi x v reducesTo_S262144x1000_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 1000#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x1000 : Shape := ⟨2, ![262144, 1000]⟩
abbrev S262144 : Shape := ⟨1, ![262144]⟩
abbrev S_ : Shape := ⟨0, ![]⟩
abbrev S262144x1 : Shape := ⟨2, ![262144, 1]⟩
abbrev S1024x1000 : Shape := ⟨2, ![1024, 1000]⟩
abbrev S1024x1 : Shape := ⟨2, ![1024, 1]⟩
abbrev S1024 : Shape := ⟨1, ![1024]⟩

abbrev nBuf : Space → Nat
  | .hbm => 13
  | .vmem => 6
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S262144, .i32⟩
  | .hbm, ⟨6, _⟩ => ⟨S262144, .i32⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x1, .f32⟩
  | .hbm, ⟨12, _⟩ => ⟨S262144, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | _, _ => ⟨S262144x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S262144 : S_.BroadcastsInDim S262144 (![] : Fin 0 → Fin S262144.rank)
  shapeCasts_S262144_S262144x1 : S262144.ShapeCasts S262144x1
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  reduces_S1024x1000_S1024 : S1024x1000.Reduces [1] S1024
  shapeCasts_S1024_S1024x1 : S1024.ShapeCasts S1024x1
  shapeCasts_S262144x1_S262144 : S262144x1.ShapeCasts S262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S262144x1000.size a
  hwx0_0 : ∀ i : grid0.Coords, EltTy.bits .f32 = 32 ∨ (Rect.block (s := S262144x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S262144x1.size a
  hwx0_2 : ∀ i : grid0.Coords, EltTy.bits .f32 = 32 ∨ (Rect.block (s := S262144x1) S1024x1.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x1000 : Shape := ⟨2, ![262144, 1000]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S1x1000 : Shape := ⟨2, ![1, 1000]⟩

abbrev nBuf : Space → Nat
  | .hbm => 55
  | .vmem => 0
  | .smem => 0
  | _ => 0

abbrev bufTy : (tb : Table) → Fin (tcTables nBuf tb) → BufTy
  | .hbm, ⟨0, _⟩ => ⟨S262144x1000, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x1000, .f32⟩
  | .hbm, ⟨9, _⟩ => ⟨S262144x1000, .f32⟩
  | .hbm, ⟨10, _⟩ => ⟨S262144x1000, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x1000, .f32⟩
  | .hbm, ⟨15, _⟩ => ⟨S262144x1000, .f32⟩
  | .hbm, ⟨16, _⟩ => ⟨S262144x1, .i32⟩
  | .hbm, ⟨17, _⟩ => ⟨S_, .i32⟩
  | .hbm, ⟨18, _⟩ => ⟨S262144x1, .i32⟩
  | .hbm, ⟨19, _⟩ => ⟨S262144x1, .i1⟩
  | .hbm, ⟨20, _⟩ => ⟨S_, .i32⟩
  | .hbm, ⟨21, _⟩ => ⟨S262144x1, .i32⟩
  | .hbm, ⟨22, _⟩ => ⟨S262144x1, .i32⟩
  | .hbm, ⟨23, _⟩ => ⟨S262144x1, .i32⟩
  | .hbm, ⟨24, _⟩ => ⟨S262144x1x1, .i32⟩
  | .hbm, ⟨25, _⟩ => ⟨S1, .i32⟩
  | .hbm, ⟨26, _⟩ => ⟨S_, .i32⟩
  | .hbm, ⟨27, _⟩ => ⟨S262144x1x1, .i32⟩
  | .hbm, ⟨28, _⟩ => ⟨S262144x1x1, .i1⟩
  | .hbm, ⟨29, _⟩ => ⟨S1x1x1, .i32⟩
  | .hbm, ⟨30, _⟩ => ⟨S262144x1x1, .i32⟩
  | .hbm, ⟨31, _⟩ => ⟨S262144x1x1, .i1⟩
  | .hbm, ⟨32, _⟩ => ⟨S262144x1x1, .i1⟩
  | .hbm, ⟨33, _⟩ => ⟨S_, .i1⟩
  | .hbm, ⟨34, _⟩ => ⟨S262144x1, .i1⟩
  | .hbm, ⟨35, _⟩ => ⟨S262144x1, .f32⟩
  | .hbm, ⟨36, _⟩ => ⟨S_, .f32⟩
  | .hbm, ⟨37, _⟩ => ⟨S262144x1, .f32⟩
  | .hbm, ⟨38, _⟩ => ⟨S262144x1, .f32⟩
  | .hbm, ⟨39, _⟩ => ⟨S262144, .f32⟩
  | .hbm, ⟨40, _⟩ => ⟨S262144x1, .i32⟩
  | .hbm, ⟨41, _⟩ => ⟨S1x1000, .i32⟩
  | .hbm, ⟨42, _⟩ => ⟨S262144x1000, .i32⟩
  | .hbm, ⟨43, _⟩ => ⟨S262144x1000, .i32⟩
  | .hbm, ⟨44, _⟩ => ⟨S262144x1000, .i1⟩
  | .hbm, ⟨45, _⟩ => ⟨S_, .f32⟩
  | .hbm, ⟨46, _⟩ => ⟨S_, .f32⟩
  | .hbm, ⟨47, _⟩ => ⟨S262144x1000, .f32⟩
  | .hbm, ⟨48, _⟩ => ⟨S262144x1000, .f32⟩
  | .hbm, ⟨49, _⟩ => ⟨S_, .f32⟩
  | .hbm, ⟨50, _⟩ => ⟨S262144, .f32⟩
  | .hbm, ⟨51, _⟩ => ⟨S_, .f32⟩
  | .hbm, ⟨52, _⟩ => ⟨S262144, .f32⟩
  | .hbm, ⟨53, _⟩ => ⟨S262144, .f32⟩
  | .hbm, ⟨54, _⟩ => ⟨S262144, .f32⟩
  | _, _ => ⟨S262144x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_v14 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_v15 : Ref sig .tc := ⟨.hbm, 48, rfl⟩
abbrev main_cst_3 : Ref sig .tc := ⟨.hbm, 49, rfl⟩
abbrev main_v16 : Ref sig .tc := ⟨.hbm, 50, rfl⟩
abbrev main_cst_4 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩

abbrev nD : Nat := 1
abbrev τ : Topo := Topo.v7x

variable {F : FTy → Type} [FloatOps F]

class Facts₀ : Prop where
  reducesTo_S262144x1000_S262144_d1 : S262144x1000.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1000_0_1 : S262144x1.BroadcastsInDim S262144x1000 (![0, 1] : Fin 2 → Fin S262144x1000.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  bcast_S1x1000_S262144x1000_0_1 : S1x1000.BroadcastsInDim S262144x1000 (![0, 1] : Fin 2 → Fin S262144x1000.rank)
  bcast_S_S262144x1000 : S_.BroadcastsInDim S262144x1000 (![] : Fin 0 → Fin S262144x1000.rank)
  gather_S262144x1000_S262144x1x1_S262144x1_n_1_0_0_1_2_11_wf : GatherDims.WF S262144x1000 S262144x1x1 S262144x1 [] [1] [0] [1] [0] 2 ![1, 1]

variable [Facts₀]

def gather_S262144x1000_S262144x1x1_S262144x1_n_1_0_0_1_2_11 : GatherDims S262144x1000 S262144x1x1 S262144x1 where
  offsetDims := []
  collapsedSliceDims := [1]
  operandBatchingDims := [0]
  startIndicesBatchingDims := [0]
  startIndexMap := [1]
  indexVectorDim := 2
  sliceSizes := ![1, 1]
  wf := gather_S262144x1000_S262144x1x1_S262144x1_n_1_0_0_1_2_11_wf

class Facts : Prop extends Facts₀ where

variable [Facts]
-- ==== Proof.PreFacts.lean ====
/-
  What the precondition says, element by element: every class score is a real number (its absolute value is below
  +∞), and every label is a class, 0 ≤ y < 1000, so that read as an unsigned word it is below 1000.
-/
import proofs.«409022_j78469052498221_3_alg».proof.Pre_finite_inputs
import proofs.«409022_j78469052498221_3_alg».proof.Proof.Gen.Pre_finite_inputs
import Idealize.ShloMosaic.Lib.ReduceAll
import Idealize.ShloMosaic.Lib.ValueIdx
import Idealize.ShloMosaic.PureOps.Ideal.Laws

noncomputable section

namespace Cert.Margin

open Idealize.ShloMosaic Idealize.ShloMosaic.ValueIdx Cert.Pre_finite_inputs

instance subsingleton_scalar_idx : Subsingleton S_.Idx := ⟨fun a b => funext fun d => d.elim0⟩

/-- An extended real whose absolute value is below +∞ is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- A condition bit that is 1 came from a true condition. -/
theorem ofBool_one {b : Bool} (h : BitVec.ofBool b = 1#1) : b = true := by
  cases b
  · exact absurd h (by decide)
  · rfl

/-- A 32-bit word that reads, signed, in [0, 1000) reads the same unsigned. -/
theorem toNat_lt_of_toInt {w : BitVec 32} (h0 : (0 : Int) ≤ w.toInt) (h1 : w.toInt < 1000) : w.toNat < 1000 := by
  have h := BitVec.toInt_eq_toNat_cond w
  have hlt := w.isLt
  split at h <;> omega

/-- THE PRECONDITION, READ: real scores and labels in range. -/
theorem pre_read (x : FVec Ideal S262144x1000 .f32) (y : IVec S262144 32)
    (h : Cert.Pre_finite_inputs.fn (F := Ideal) x y = fun _ => 1#1) :
    (∀ i, ∃ r : ℝ, x i = (r : EReal)) ∧ (∀ i, (y i).toNat < 1000) := by
  have e := congrFun h ix0
  dsimp only [Cert.Pre_finite_inputs.fn] at e
  obtain ⟨e1, e2⟩ := IntOp.andi_eq_one.1 e
  refine ⟨fun i => ?_, fun i => ?_⟩
  · have h1 := Host.reduce_andi_all _ _ _ _ _ e1 i
    have h2 : Ideal.cmp .olt (max (x i) (-(x i))) (Ideal.ofBits .f32 0x7F800000#32) = 1#1 := h1
    have h3 : Ideal.ofBits .f32 0x7F800000#32 = (⊤ : EReal) := by simp [Ideal.ofBits, Ideal.ieee]
    rw [h3] at h2
    have h4 : BitVec.ofBool (decide (max (x i) (-(x i)) < (⊤ : EReal))) = 1#1 := h2
    exact real_of_abs_lt_top (x i) (of_decide_eq_true (ofBool_one h4))
  · have h1 := Host.reduce_andi_all _ _ _ _ _ e2 i
    obtain ⟨ha, hb⟩ := IntOp.andi_eq_one.1 h1
    have ha' : (0#32 : BitVec 32).toInt ≤ (y i).toInt := IntOp.cmpi_sge.1 ha
    have hb' : (y i).toInt < (1000#32 : BitVec 32).toInt := IntOp.cmpi_slt.1 hb
    exact toNat_lt_of_toInt (by simpa using ha') (by simpa using hb')

end Cert.Margin

end
-- ==== Proof.RowLaw.lean ====
/-
  One row of the margin loss, on the extended reals.

  For a row x of C class scores and a true class k, write M = max_c x_c and S = ∑_c exp (x_c - M).
  One program exponentiates after it has reduced: it takes the largest score among the wrong classes
  (the true class masked to -∞), the true class's score as a masked sum, and returns
      1 + (exp (max_{c ≠ k} x_c - M) - exp (x_k - M)) · (1 / S).
  The other reduces after it has exponentiated and divided: with p_c = exp (x_c - M) / S it returns
      (1 + max_{c ≠ k} p_c) - p_k.
  On a row of real numbers with at least one wrong class the two agree: t ↦ exp (t - M) / S is monotone, so it
  commutes with the maximum over the wrong classes, and the rest is arithmetic of real numbers (S ≥ 1 > 0).
-/
import Idealize.ShloMosaic.PureOps.Ideal

noncomputable section

namespace Cert.Margin

open Idealize.ShloMosaic

variable {n : ℕ}

/-- The largest entry of a row, folded from -∞. -/
def rowMax (x : Fin n → EReal) : EReal := Finset.univ.fold max ⊥ x

/-- The softmax denominator of a row, shifted by the row's maximum. -/
def rowDen (x : Fin n → EReal) : EReal := ∑ c, Ideal.exp (x c - rowMax x)

/-- Reduce first, exponentiate after: the wrong classes' largest score and the true class's score (a masked
    sum), each shifted by the row's maximum and exponentiated, their difference scaled by 1 / S. -/
def lossReduceFirst (x : Fin n → EReal) (k : Fin n) : EReal :=
  1 + (Ideal.exp (Finset.univ.fold max ⊥ (fun c => if c = k then ⊥ else x c) - rowMax x)
        - Ideal.exp ((∑ c, if c = k then x c else 0) - rowMax x)) * Ideal.div 1 (rowDen x)

/-- Exponentiate and divide first, reduce after: the largest wrong-class probability, less the true class's. -/
def lossSoftmaxFirst (x : Fin n → EReal) (k : Fin n) : EReal :=
  (1 + Finset.univ.fold max ⊥
        (fun c => if c = k then ⊥ else Ideal.div (Ideal.exp (x c - rowMax x)) (rowDen x)))
    - Ideal.div (Ideal.exp (x k - rowMax x)) (rowDen x)

/-- A maximum of real numbers folded from -∞ over a nonempty set is the real maximum. -/
theorem fold_max_coe {ι : Type} (s : Finset ι) (hs : s.Nonempty) (f : ι → ℝ) :
    s.fold max ⊥ (fun c => ((f c : ℝ) : EReal)) = ((s.sup' hs f : ℝ) : EReal) := by
  have h1 : s.fold max ⊥ (fun c => ((f c : ℝ) : EReal)) = s.sup (fun c => ((f c : ℝ) : EReal)) := rfl
  rw [h1, ← Finset.sup'_eq_sup hs]
  exact (Finset.apply_sup'_eq_sup'_comp hs (fun r : ℝ => (r : EReal))
    (fun a b => EReal.coe_strictMono.monotone.map_max)).symm

/-- With one entry masked to -∞, the fold is the real maximum over the others. -/
theorem fold_max_masked (f : Fin n → ℝ) (k : Fin n) (hk : (Finset.univ.erase k).Nonempty) :
    Finset.univ.fold max ⊥ (fun c => if c = k then (⊥ : EReal) else ((f c : ℝ) : EReal))
      = (((Finset.univ.erase k).sup' hk f : ℝ) : EReal) := by
  have h1 : Finset.univ.fold max ⊥ (fun c => if c = k then (⊥ : EReal) else ((f c : ℝ) : EReal))
      = (Finset.univ : Finset (Fin n)).sup (fun c => if c = k then (⊥ : EReal) else ((f c : ℝ) : EReal)) := rfl
  have h2 : (Finset.univ : Finset (Fin n)).sup (fun c => if c = k then (⊥ : EReal) else ((f c : ℝ) : EReal))
      = (insert k (Finset.univ.erase k)).sup (fun c => if c = k then (⊥ : EReal) else ((f c : ℝ) : EReal)) := by
    rw [Finset.insert_erase (Finset.mem_univ k)]
  rw [h1, h2, Finset.sup_insert, if_pos rfl, bot_sup_eq, ← fold_max_coe _ hk f]
  exact Finset.sup_congr rfl (fun c hc => if_neg (Finset.ne_of_mem_erase hc))

/-- A finite sum of real numbers, taken in the extended reals. -/
theorem sum_coe {ι : Type} (s : Finset ι) (f : ι → ℝ) :
    ∑ c ∈ s, ((f c : ℝ) : EReal) = ((∑ c ∈ s, f c : ℝ) : EReal) := by
  classical
  induction s using Finset.induction_on with
  | empty => simp
  | insert a s ha ih => rw [Finset.sum_insert ha, Finset.sum_insert ha, ih, EReal.coe_add]

/-- THE LAW: on a row of real numbers with a wrong class, the two orders of reducing and exponentiating agree. -/
theorem lossReduceFirst_eq_lossSoftmaxFirst (xs : Fin n → ℝ) (k : Fin n) (hk : (Finset.univ.erase k).Nonempty) :
    lossReduceFirst (fun c => ((xs c : ℝ) : EReal)) k = lossSoftmaxFirst (fun c => ((xs c : ℝ) : EReal)) k := by
  have hu : (Finset.univ : Finset (Fin n)).Nonempty := ⟨k, Finset.mem_univ k⟩
  -- the row's maximum and denominator are real numbers
  set M : ℝ := Finset.univ.sup' hu xs with hM
  have hmax : rowMax (fun c => ((xs c : ℝ) : EReal)) = (M : EReal) := fold_max_coe _ hu xs
  set S : ℝ := ∑ c, Real.exp (xs c - M) with hS
  have hden : rowDen (fun c => ((xs c : ℝ) : EReal)) = (S : EReal) := by
    unfold rowDen
    rw [hmax, ← sum_coe]
    exact Finset.sum_congr rfl (fun c _ => by rw [← EReal.coe_sub, Ideal.exp_coe])
  have hSpos : 0 < S :=
    Finset.sum_pos (fun c _ => Real.exp_pos _) hu
  have hS0 : S ≠ 0 := ne_of_gt hSpos
  -- the largest wrong-class score
  set W : ℝ := (Finset.univ.erase k).sup' hk xs with hW
  -- t ↦ exp (t - M) / S commutes with the maximum
  have hmono : Monotone (fun t : ℝ => Real.exp (t - M) * (1 / S)) := fun a b hab =>
    mul_le_mul_of_nonneg_right (Real.exp_le_exp.mpr (by linarith)) (by positivity)
  have hcomm : Real.exp (W - M) * (1 / S)
      = (Finset.univ.erase k).sup' hk (fun c => Real.exp (xs c - M) * (1 / S)) :=
    Finset.apply_sup'_eq_sup'_comp hk (fun t : ℝ => Real.exp (t - M) * (1 / S)) (fun a b => hmono.map_max)
  unfold lossReduceFirst lossSoftmaxFirst
  rw [hmax, hden, fold_max_masked xs k hk, Finset.sum_ite_eq' Finset.univ k, if_pos (Finset.mem_univ k)]
  have hprob : ∀ c, Ideal.div (Ideal.exp (((xs c : ℝ) : EReal) - (M : EReal))) (S : EReal)
      = ((Real.exp (xs c - M) * (1 / S) : ℝ) : EReal) := fun c => by
    rw [Ideal.div_coe hS0, ← EReal.coe_sub, Ideal.exp_coe, ← EReal.coe_mul]
  simp only [hprob]
  rw [fold_max_masked (fun c => Real.exp (xs c - M) * (1 / S)) k hk, ← hcomm, Ideal.div_coe hS0,
    ← EReal.coe_sub, ← EReal.coe_sub, Ideal.exp_coe, Ideal.exp_coe]
  norm_cast
  ring

end Cert.Margin

end
-- ==== Proof.Consts.lean ====
/-
  The float literals both programs spell, as the extended reals they denote: -∞ (the reductions' starting value and
  the reference's mask fill) and 1.
-/
import Idealize.ShloMosaic.PureOps.Ideal

noncomputable section

namespace Cert.Margin

open Idealize.ShloMosaic

/-- The pattern of -∞ denotes the bottom of the extended reals. -/
theorem ofBits_neg_inf : Ideal.ofBits .f32 0xFF800000#32 = (⊥ : EReal) := by
  simp [Ideal.ofBits, Ideal.ieee]

/-- The pattern of 1.0 denotes 1. -/
theorem ofBits_one : Ideal.ofBits .f32 0x3F800000#32 = (1 : EReal) := by
  simp [Ideal.ofBits, Ideal.ieee, -EReal.coe_mul]; norm_num

/-- The pattern of +0.0 denotes 0. -/
theorem ofBits_zero : Ideal.ofBits .f32 0x00000000#32 = (0 : EReal) := by
  simp [Ideal.ofBits, Ideal.ieee]

end Cert.Margin

end
-- ==== Proof.Label.lean ====
/-
  A label as a 32-bit word.  A class k < 1000 is the word of the number k; it reads k signed and unsigned, it is
  not negative, it is at most 999, clamping it to [0, 999] leaves it, and the bit "class c is the label" chooses
  between two values as "c = k" does, whichever side of the comparison the label stands on.
-/
import Idealize.ShloMosaic.Lib.Affine
import Idealize.ShloMosaic.Lib.ValueIdx
import Idealize.ShloMosaic.Lib.StableHlo.Predicate

noncomputable section

namespace Cert.Margin

open Idealize.ShloMosaic Idealize.ShloMosaic.ValueIdx Idealize.ShloMosaic.StableHlo

/-- The word of class k. -/
abbrev lab (k : Fin 1000) : BitVec 32 := BitVec.ofNat 32 k.val

/-- The class a word names (taken modulo 1000, so that it is total; a word below 1000 names itself). -/
def cls (w : BitVec 32) : Fin 1000 := ⟨w.toNat % 1000, Nat.mod_lt _ (by decide)⟩

theorem lab_toNat (k : Fin 1000) : (lab k).toNat = k.val := by
  show (BitVec.ofNat 32 k.val).toNat = k.val
  rw [BitVec.toNat_ofNat]
  have := k.isLt
  omega

theorem lab_toInt (k : Fin 1000) : (lab k).toInt = (k.val : Int) :=
  Predicate.toInt_ofNat_small k.val (by have := k.isLt; omega)

/-- A word below 1000 is the word of its class. -/
theorem lab_cls {w : BitVec 32} (h : w.toNat < 1000) : w = lab (cls w) := by
  apply BitVec.eq_of_toNat_eq
  rw [lab_toNat]
  show w.toNat = w.toNat % 1000
  omega

/-- The class of a class's word is the class. -/
theorem cls_lab (k : Fin 1000) : cls (lab k) = k :=
  Fin.ext (by
    show (lab k).toNat % 1000 = k.val
    rw [lab_toNat]
    have := k.isLt
    omega)

theorem lab_inj {c k : Fin 1000} (h : lab c = lab k) : c = k :=
  Fin.ext (by have e := congrArg BitVec.toNat h; rwa [lab_toNat, lab_toNat] at e)

theorem zero_toInt : (0#32 : BitVec 32).toInt = 0 := by decide
theorem w999_toInt : (999#32 : BitVec 32).toInt = 999 := by decide

/-- A label is not negative, -/
theorem lab_not_slt_zero (k : Fin 1000) : IntOp.cmpi .slt (lab k) 0#32 = 0#1 :=
  eq_zero_of_ne_one (fun h => by
    have := IntOp.cmpi_slt.1 h
    rw [lab_toInt, zero_toInt] at this
    omega)
theorem lab_sge_zero (k : Fin 1000) : IntOp.cmpi .sge (lab k) 0#32 = 1#1 :=
  IntOp.cmpi_sge.2 (by rw [lab_toInt, zero_toInt]; omega)
/-- and at most 999. -/
theorem lab_sle_999 (k : Fin 1000) : IntOp.cmpi .sle (lab k) 999#32 = 1#1 :=
  IntOp.cmpi_sle.2 (by rw [lab_toInt, w999_toInt]; have := k.isLt; omega)

/-- Clamping a label to [0, 999] (the larger of 0 and it, then the smaller of 999 and that) leaves it. -/
theorem clip_lab (k : Fin 1000) : IntOp.minsi 999#32 (IntOp.maxsi 0#32 (lab k)) = lab k := by
  have h1 : (lab k).slt 0#32 = false := by
    rw [Bool.eq_false_iff]
    intro h
    have := BitVec.slt_iff_toInt_lt.1 h
    rw [lab_toInt, zero_toInt] at this
    omega
  have h2 : (999#32 : BitVec 32).slt (lab k) = false := by
    rw [Bool.eq_false_iff]
    intro h
    have := BitVec.slt_iff_toInt_lt.1 h
    rw [lab_toInt, w999_toInt] at this
    have := k.isLt
    omega
  unfold IntOp.maxsi
  rw [h1]
  unfold IntOp.minsi
  simp only [Bool.false_eq_true, if_false, h2]

/-- Choosing by the bit "class c is the label k", the class on the left of the comparison, -/
theorem select_onehot {α : Type} (c k : Fin 1000) (A B : α) :
    Scalar.select (IntOp.cmpi .eq (lab c) (lab k)) A B = if c = k then A else B := by
  by_cases h : c = k
  · subst h
    rw [if_pos rfl, IntOp.cmpi_eq.2 rfl]
    exact select_one _ _
  · rw [if_neg h, eq_zero_of_ne_one (mt IntOp.cmpi_eq.1 (fun e => h (lab_inj e)))]
    exact select_zero _ _

/-- and on the right. -/
theorem select_onehot' {α : Type} (c k : Fin 1000) (A B : α) :
    Scalar.select (IntOp.cmpi .eq (lab k) (lab c)) A B = if c = k then A else B := by
  by_cases h : c = k
  · subst h
    rw [if_pos rfl, IntOp.cmpi_eq.2 rfl]
    exact select_one _ _
  · rw [if_neg h, eq_zero_of_ne_one (mt IntOp.cmpi_eq.1 (fun e => h (lab_inj e).symm))]
    exact select_zero _ _

end Cert.Margin

end
-- ==== Proof.KernelRow.lean ====
/-
  The kernel body's stored value, read at one row.

  The body loads a block of 1024 rows of 1000 class scores and the rows' labels (a column of words), builds the mask
  "column = label" from an iota, and stores, per row, 1 + (exp (max of the unmasked scores - M) - exp (the masked sum - M))
  · (1 / S), with M the row's maximum and S = ∑ exp (score - M).  At row r, when the row's label word is the class k,
  that is lossReduceFirst of the row at k.
-/
import proofs.«409022_j78469052498221_3_alg».proof.Proof.Gen.KernelIdeal.Skeleton
import proofs.«409022_j78469052498221_3_alg».proof.Proof.RowLaw
import proofs.«409022_j78469052498221_3_alg».proof.Proof.Consts
import proofs.«409022_j78469052498221_3_alg».proof.Proof.Label
import Idealize.ShloMosaic.Lib.Pipeline.Value
import Idealize.ShloMosaic.Lib.ValueIdx
import Idealize.ShloMosaic.Lib.Affine
import Idealize.ShloMosaic.PureOps.Ideal.Laws
import Idealize.ShloMosaic.PureOps.IdealRules

noncomputable section

namespace Cert.KernelIdeal.Row

open Cert.KernelIdeal Cert.KernelIdeal.Gen Idealize.ShloMosaic Idealize.ShloMosaic.ValueIdx Cert.Margin

/-- The mask fill, a finite stand-in in the kernel's text, is named -∞. -/
theorem neg_big : Named.named (F := Ideal) κ "neg_big" (φ := .f32) 0xFF333332#32 = (⊥ : EReal) :=
  IdealRules.named_const.ideal_named_scalar _ _ _ _ rfl

/-- A vector of 1024 entries kept as a column reads, at (r, 0), the vector at r. -/
theorem col_apply {α : Type} (v : S1024.Idx → α) (r : Fin 1024) :
    shapeCast S1024x1 v shapeCasts_S1024_S1024x1 (ix2 r (0 : Fin 1)) = v (ix1 r) :=
  shapeCast_apply v _ _ (ix1 r) (by
    rewrite [Shape.rowMajor_val_one, Shape.rowMajor_val_two]
    show r.val = r.val * 1 + 0
    omega)

/-- A column broadcast along the classes reads, at (r, c), the column at (r, 0). -/
theorem bcol_apply {α : Type} (v : S1024x1.Idx → α) (r : Fin 1024) (c : Fin 1000) :
    broadcastTo S1024x1000 v broadcasts_S1024x1_S1024x1000 (ix2 r c) = v (ix2 r (0 : Fin 1)) :=
  broadcastTo_apply v _ _ (ix2 r (0 : Fin 1)) (fun a => by
    match a with
    | ⟨0, _⟩ => show r.val = if (1024 : Nat) = 1 then 0 else r.val; rw [if_neg (by decide)]
    | ⟨1, _⟩ => show 0 = if (1 : Nat) = 1 then 0 else c.val; rw [if_pos rfl])

/-- The index a reduction over the classes reads for row r and class c. -/
theorem lift_eq (r : Fin 1024) (c : Fin 1000) :
    (reduces_S1024x1000_S1024).lift (ix1 r) c = ix2 r c :=
  funext fun a => Fin.ext (by match a with | ⟨0, _⟩ => rfl | ⟨1, _⟩ => rfl)

/-- A row's maximum over the classes, folded from -∞. -/
theorem rowmax_apply (v : FVec Ideal S1024x1000 .f32) (r : Fin 1024) :
    multiReduction .maximumf [1] S1024 v 0xFF800000#32 reduces_S1024x1000_S1024 (.inl rfl) rfl (ix1 r)
      = Finset.univ.fold max ⊥ (fun c : Fin 1000 => v (ix2 r c)) := by
  refine (Ideal.multiReduction_maximumf_single v 0xFF800000#32 reduces_S1024x1000_S1024 (.inl rfl) rfl (ix1 r)).trans ?_
  rw [Ideal.ofBits_def, ofBits_neg_inf]
  exact congrArg (fun f => Finset.univ.fold max (⊥ : EReal) f) (funext fun c => congrArg v (lift_eq r c))

/-- A row's sum over the classes. -/
theorem rowsum_apply (v : FVec Ideal S1024x1000 .f32) (r : Fin 1024) :
    multiReduction .add [1] S1024 v 0x00000000#32 reduces_S1024x1000_S1024 (.inl rfl) rfl (ix1 r)
      = ∑ c : Fin 1000, v (ix2 r c) := by
  refine (Ideal.multiReduction_add_single v 0x00000000#32 reduces_S1024x1000_S1024 (.inl rfl) rfl (ix1 r)).trans ?_
  exact Finset.sum_congr rfl (fun c _ => congrArg v (lift_eq r c))

theorem exp_apply {s : Shape} (v : FVec Ideal s .f32) (i : s.Idx) : exp v i = Ideal.exp (v i) := rfl

/-! ## The body's five row quantities, named -/

/-- The mask "column = label". -/
def maskV (x1 : Vec Ideal S1024x1 .i32) : IVec S1024x1000 1 :=
  cmpi .eq (iota .tc S1024x1000 32 [1] iota_S1024x1000_d1_w32)
    (broadcastTo S1024x1000 (shapeCast S1024x1 x1 shapeCasts_S1024x1_S1024x1) broadcasts_S1024x1_S1024x1000)

/-- The largest score among the unmasked classes, as a column. -/
def wrongMaxV (x0 : Vec Ideal S1024x1000 .f32) (x1 : Vec Ideal S1024x1 .i32) : FVec Ideal S1024x1 .f32 :=
  shapeCast S1024x1 (multiReduction .maximumf [1] S1024
    (select (maskV x1) (broadcast S1024x1000 (Named.named (F := Ideal) κ "neg_big" (φ := .f32) 0xFF333332#32)) x0)
    0xFF800000#32 reduces_S1024x1000_S1024 (.inl rfl) rfl) shapeCasts_S1024_S1024x1

/-- The masked class's score (a sum with every other class zeroed), as a column. -/
def trueV (x0 : Vec Ideal S1024x1000 .f32) (x1 : Vec Ideal S1024x1 .i32) : FVec Ideal S1024x1 .f32 :=
  shapeCast S1024x1 (multiReduction .add [1] S1024
    (select (maskV x1) x0 (broadcast S1024x1000 (Scalar.ofBits (F := Ideal) .f32 0x00000000#32)))
    0x00000000#32 reduces_S1024x1000_S1024 (.inl rfl) rfl) shapeCasts_S1024_S1024x1

/-- The row maxima, as a column. -/
def maxV (x0 : Vec Ideal S1024x1000 .f32) : FVec Ideal S1024x1 .f32 :=
  shapeCast S1024x1 (multiReduction .maximumf [1] S1024 x0 0xFF800000#32 reduces_S1024x1000_S1024 (.inl rfl) rfl)
    shapeCasts_S1024_S1024x1

/-- The softmax denominators, as a column. -/
def denV (x0 : Vec Ideal S1024x1000 .f32) : FVec Ideal S1024x1 .f32 :=
  shapeCast S1024x1 (multiReduction .add [1] S1024
    (exp (subf x0 (broadcastTo S1024x1000 (maxV x0) broadcasts_S1024x1_S1024x1000)))
    0x00000000#32 reduces_S1024x1000_S1024 (.inl rfl) rfl) shapeCasts_S1024_S1024x1

set_option maxRecDepth 65536 in
/-- The stored value is 1 + (exp (wrongMax - max) - exp (true - max)) · (1 / den). -/
theorem pay_eq (x0 : Vec Ideal S1024x1000 .f32) (x1 : Vec Ideal S1024x1 .i32) :
    k0_pay1 (F := Ideal) x0 x1
      = addf (broadcast S1024x1 (Scalar.ofBits (F := Ideal) .f32 0x3F800000#32))
          (mulf (subf (exp (subf (wrongMaxV x0 x1) (maxV x0))) (exp (subf (trueV x0 x1) (maxV x0))))
            (divf (broadcast S1024x1 (Scalar.ofBits (F := Ideal) .f32 0x3F800000#32)) (denV x0))) := rfl

/-- That combination of four columns, read at an entry. -/
theorem combine_apply (W T M D : FVec Ideal S1024x1 .f32) (i : S1024x1.Idx) :
    addf (broadcast S1024x1 (Scalar.ofBits (F := Ideal) .f32 0x3F800000#32))
        (mulf (subf (exp (subf W M)) (exp (subf T M)))
          (divf (broadcast S1024x1 (Scalar.ofBits (F := Ideal) .f32 0x3F800000#32)) D)) i
      = 1 + (Ideal.exp (W i - M i) - Ideal.exp (T i - M i)) * Ideal.div 1 (D i) := by
  show Ideal.ofBits .f32 0x3F800000#32 + (Ideal.exp (W i - M i) - Ideal.exp (T i - M i))
    * Ideal.div (Ideal.ofBits .f32 0x3F800000#32) (D i) = _
  rw [ofBits_one]

/-! ## Each of them at row r -/

section Row
variable (x0 : Vec Ideal S1024x1000 .f32) (x1 : Vec Ideal S1024x1 .i32) (r : Fin 1024) (k : Fin 1000)

theorem maxV_apply : maxV x0 (ix2 r (0 : Fin 1)) = rowMax (fun c => x0 (ix2 r c)) := by
  unfold maxV
  exact (col_apply _ r).trans (rowmax_apply x0 r)

theorem denV_apply : denV x0 (ix2 r (0 : Fin 1)) = rowDen (fun c => x0 (ix2 r c)) := by
  unfold denV
  refine (col_apply _ r).trans ((rowsum_apply _ r).trans ?_)
  unfold rowDen
  refine Finset.sum_congr rfl (fun c _ => ?_)
  show Ideal.exp (x0 (ix2 r c) - broadcastTo S1024x1000 (maxV x0) broadcasts_S1024x1_S1024x1000 (ix2 r c)) = _
  rw [bcol_apply, maxV_apply]

variable (hk : x1 (ix2 r (0 : Fin 1)) = lab k)
include hk

theorem maskV_apply (c : Fin 1000) : maskV x1 (ix2 r c) = IntOp.cmpi .eq (lab c) (lab k) := by
  show IntOp.cmpi .eq (iota .tc S1024x1000 32 [1] iota_S1024x1000_d1_w32 (ix2 r c))
    (broadcastTo S1024x1000 (shapeCast S1024x1 x1 shapeCasts_S1024x1_S1024x1) broadcasts_S1024x1_S1024x1000 (ix2 r c)) = _
  rw [iota_single_apply, bcol_apply, shapeCast_self, hk]

theorem wrongMaxV_apply : wrongMaxV x0 x1 (ix2 r (0 : Fin 1))
    = Finset.univ.fold max ⊥ (fun c : Fin 1000 => if c = k then ⊥ else x0 (ix2 r c)) := by
  unfold wrongMaxV
  refine (col_apply _ r).trans ((rowmax_apply _ r).trans ?_)
  refine congrArg (fun f => Finset.univ.fold max (⊥ : EReal) f) (funext fun c => ?_)
  show Scalar.select (maskV x1 (ix2 r c)) (Named.named (F := Ideal) κ "neg_big" (φ := .f32) 0xFF333332#32) (x0 (ix2 r c)) = _
  rw [maskV_apply x1 r k hk c, select_onehot, neg_big]

theorem trueV_apply : trueV x0 x1 (ix2 r (0 : Fin 1)) = ∑ c : Fin 1000, if c = k then x0 (ix2 r c) else 0 := by
  unfold trueV
  refine (col_apply _ r).trans ((rowsum_apply _ r).trans ?_)
  refine Finset.sum_congr rfl (fun c _ => ?_)
  show Scalar.select (maskV x1 (ix2 r c)) (x0 (ix2 r c)) (Ideal.ofBits .f32 0x00000000#32) = _
  rw [maskV_apply x1 r k hk c, select_onehot, ofBits_zero]

/-- THE STORED VALUE AT ROW r, when the row's label word is the class k. -/
theorem pay_apply : k0_pay1 (F := Ideal) x0 x1 (ix2 r (0 : Fin 1)) = lossReduceFirst (fun c => x0 (ix2 r c)) k := by
  refine (congrFun (pay_eq x0 x1) (ix2 r (0 : Fin 1))).trans ?_
  refine (combine_apply (wrongMaxV x0 x1) (trueV x0 x1) (maxV x0) (denV x0) (ix2 r (0 : Fin 1))).trans ?_
  rw [wrongMaxV_apply x0 x1 r k hk, trueV_apply x0 x1 r k hk, maxV_apply, denV_apply]
  unfold lossReduceFirst
  rfl

end Row

end Cert.KernelIdeal.Row

end
-- ==== Proof.Spec.lean ====
/-
  The whole result, one function of the two inputs: for every row b of the 262144, the loss of the row's 1000 scores at
  the class its label names.  Stated in the reduce-first form (the kernel's); on real scores and labels below 1000 it
  is the softmax-first form (the reference's), by the row law.
-/
import proofs.«409022_j78469052498221_3_alg».proof.Proof.RowLaw
import proofs.«409022_j78469052498221_3_alg».proof.Proof.Label

noncomputable section

namespace Cert.Margin

open Idealize.ShloMosaic Idealize.ShloMosaic.ValueIdx

/-- The loss of every row. -/
def lossVec (x : (⟨2, ![262144, 1000]⟩ : Shape).Idx → EReal) (y : (⟨1, ![262144]⟩ : Shape).Idx → BitVec 32) :
    (⟨1, ![262144]⟩ : Shape).Idx → EReal :=
  fun i => lossReduceFirst (fun c => x (ix2 (⟨(i 0).val, (i 0).isLt⟩ : Fin 262144) c))
    (cls (y (ix1 (⟨(i 0).val, (i 0).isLt⟩ : Fin 262144))))

/-- Among 1000 classes there is always a wrong one. -/
theorem wrong_class (k : Fin 1000) : (Finset.univ.erase k).Nonempty := by
  by_cases h : k = 0
  · exact ⟨1, Finset.mem_erase.2 ⟨by rw [h]; decide, Finset.mem_univ _⟩⟩
  · exact ⟨0, Finset.mem_erase.2 ⟨fun e => h e.symm, Finset.mem_univ _⟩⟩

/-- On real scores, row b's loss in the reduce-first form is its loss in the softmax-first form. -/
theorem row_law (x : (⟨2, ![262144, 1000]⟩ : Shape).Idx → EReal) (hx : ∀ i, ∃ r : ℝ, x i = (r : EReal))
    (b : Fin 262144) (k : Fin 1000) :
    lossReduceFirst (fun c => x (ix2 b c)) k = lossSoftmaxFirst (fun c => x (ix2 b c)) k := by
  choose xr hxr using hx
  have e : (fun c : Fin 1000 => x (ix2 b c)) = fun c => ((xr (ix2 b c) : ℝ) : EReal) := funext fun c => hxr _
  rw [e]
  exact lossReduceFirst_eq_lossSoftmaxFirst (fun c => xr (ix2 b c)) k (wrong_class k)

end Cert.Margin

end
-- ==== Proof.KernelValue.lean ====
/-
  The kernel's result array, as one function of the two inputs.

  Before the region the labels are clamped to [0, 999] and laid out as a column; a label that is a class is left as it
  is.  The region walks the 256 blocks of 1024 rows: at block t the scores' window holds rows 1024·t … 1024·t + 1023,
  the labels' window those rows' labels, and the body stores, at row r of the block, the loss of row 1024·t + r at its
  label (the body's stored value read at a row).  The 256 output blocks tile the output column, so the column ends
  holding the loss of every row; after the region the column is read back as a vector.
-/
import proofs.«409022_j78469052498221_3_alg».proof.Proof.Gen.KernelIdeal.Frame
import proofs.«409022_j78469052498221_3_alg».proof.Proof.KernelRow
import proofs.«409022_j78469052498221_3_alg».proof.Proof.Label
import proofs.«409022_j78469052498221_3_alg».proof.Proof.Spec
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Row Cert.Margin
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The scores and the labels as launched. -/
abbrev xs (c : Dev nD) : S262144x1000.Idx → EReal := m ((c : Thread nD τ).loc main_arg0)
abbrev ys (c : Dev nD) : S262144.Idx → BitVec 32 := m ((c : Thread nD τ).loc main_arg1)

/-- The loss of every row, as the column the region writes. -/
def colG (x : S262144x1000.Idx → EReal) (y : S262144.Idx → BitVec 32) : S262144x1.Idx → EReal :=
  fun i => lossReduceFirst (fun c => x (ix2 (⟨(i 0).val, idx2_lt0 i⟩ : Fin 262144) c))
    (cls (y (ix1 (⟨(i 0).val, idx2_lt0 i⟩ : Fin 262144))))

/-! ## Before the region: the labels, clamped and laid out as a column -/

theorem V_labels (c : Dev nD) : (V m c main_v1 : S262144x1.Idx → BitVec 32)
    = shapeCast S262144x1 (minsi (broadcastInDim S262144 ![] bcast_S_S262144 (constantI S_ 32 999#32))
        (maxsi (broadcastInDim S262144 ![] bcast_S_S262144 (constantI S_ 32 0#32)) (ys m c))) shapeCasts_S262144_S262144x1 := by
  dsimp only [V, V0]
  simp only [hostOps0, hostOps0_1, hostOps0_2, List.flatten_cons, List.flatten_nil, List.append_nil, List.cons_append,
    List.nil_append]
  after_results
  simp only [TRef.ofBuf, TRef.toBuf, cast_eq]
  rfl

/-- Where row b's label is the word of a class, the column holds that word at (b, 0). -/
theorem labels_apply (c : Dev nD) (b : Fin 262144) (k : Fin 1000) (hk : ys m c (ix1 b) = lab k) :
    (V m c main_v1 : S262144x1.Idx → BitVec 32) (ix2 b (0 : Fin 1)) = lab k := by
  rw [V_labels]
  refine (shapeCast_apply _ _ _ (ix1 b) (by
    rewrite [Shape.rowMajor_val_one, Shape.rowMajor_val_two]
    show b.val = b.val * 1 + 0
    omega)).trans ?_
  have e999 : broadcastInDim S262144 ![] bcast_S_S262144 (constantI S_ 32 999#32) (ix1 b) = 999#32 :=
    broadcastInDim_apply _ bcast_S_S262144 _ (ix1 b) (fun a => a.elim0) (fun a => a.elim0)
  have e0 : broadcastInDim S262144 ![] bcast_S_S262144 (constantI S_ 32 0#32) (ix1 b) = 0#32 :=
    broadcastInDim_apply _ bcast_S_S262144 _ (ix1 b) (fun a => a.elim0) (fun a => a.elim0)
  show IntOp.minsi (broadcastInDim S262144 ![] bcast_S_S262144 (constantI S_ 32 999#32) (ix1 b))
    (IntOp.maxsi (broadcastInDim S262144 ![] bcast_S_S262144 (constantI S_ 32 0#32) (ix1 b)) (ys m c (ix1 b))) = _
  rw [e999, e0, hk]
  exact clip_lab k

/-! ## One block -/

theorem hz : (![0, 0] : Fin 2 → Nat) = fun _ => 0 := funext fun a => by fin_cases a <;> rfl

/-- The three windows' block indices at point t: block t along the rows, block 0 along the other axis. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A block of scores X0 that holds rows 1024·T … and a block of labels X1 that holds those rows' labels give, at row
    r of the block, the loss of row 1024·T + r. -/
theorem block_value (X0 : Vec Ideal S1024x1000 .f32) (X1 : Vec Ideal S1024x1 .i32) (x : S262144x1000.Idx → EReal)
    (y : S262144.Idx → BitVec 32) (T : Nat) (hT : T < 256) (hy : ∀ i, (y i).toNat < 1000)
    (h0 : ∀ (r : Fin 1024) (cc : Fin 1000),
      X0 (ix2 r cc) = x (ix2 (⟨T * 1024 + r.val, by have := r.isLt; omega⟩ : Fin 262144) cc))
    (h1 : ∀ r : Fin 1024, X1 (ix2 r (0 : Fin 1)) = y (ix1 (⟨T * 1024 + r.val, by have := r.isLt; omega⟩ : Fin 262144)))
    (j : S1024x1.Idx) :
    k0_pay1 (F := Ideal) X0 X1 j
      = colG x y (ix2 (⟨T * 1024 + (j 0).val, by have := idx2_lt0 j; omega⟩ : Fin 262144) (0 : Fin 1)) := by
  obtain ⟨r, q, rfl⟩ : ∃ (r : Fin 1024) (q : Fin 1), j = ix2 r q := ⟨j 0, j 1, eq_ix2 j⟩
  obtain rfl : q = 0 := Subsingleton.elim _ _
  rw [pay_apply X0 X1 r (cls (y (ix1 (⟨T * 1024 + r.val, by have := r.isLt; omega⟩ : Fin 262144))))
    ((h1 r).trans (lab_cls (hy _)))]
  unfold colG
  simp only [h0]

/-- WHAT POINT t WRITES BACK is block t of the column of losses. -/
theorem flushed_eq (c : Dev nD) (hy : ∀ i, (ys m c i).toNat < 1000) (t : Fin cfg0.N) :
    (dats m 0 c).flushed 2 t = ((cfg0.win 2).blk t).view.read (Elt Ideal) (colG (xs m c) (ys m c)) := by
  show (cfg0.win 2).cut (grid0.coords t) ((dats m 0 c).after 2 t) = _
  rw [after0_2]
  unfold out0_2
  rw [View.canon_unit_zero hz]
  simp only [View.ld_unit_zero (S := S1024x1000) hz, View.ld_unit_zero (S := S1024x1) hz]
  have ht : t.val < 256 := lt_of_lt_of_eq t.isLt N_0
  obtain ⟨e00, e01, e10, e11, e20, e21⟩ := idx_facts t
  funext j
  refine (block_value (iblk m c 0 t) (iblk m c 1 t) (xs m c) (ys m c) t.val ht hy ?_ ?_ j).trans ?_
  · intro r cc
    show V m c main_arg0 (((cfg0.win 0).blk t).view.emb (ix2 r cc)) = _
    rw [V_main_arg0]
    refine congrArg (xs m c) (funext fun a => Fin.ext ?_)
    match a with
    | ⟨0, _⟩ => show win0_0.index t (0 : Fin 2) * 1024 + 1 * r.val = t.val * 1024 + r.val; rw [e00]; omega
    | ⟨1, _⟩ => show win0_0.index t (1 : Fin 2) * 1000 + 1 * cc.val = cc.val; rw [e01]; omega
  · intro r
    show (V m c main_v1 : S262144x1.Idx → BitVec 32) (((cfg0.win 1).blk t).view.emb (ix2 r (0 : Fin 1))) = _
    have e : ((cfg0.win 1).blk t).view.emb (ix2 r (0 : Fin 1))
        = ix2 (⟨t.val * 1024 + r.val, by have := r.isLt; omega⟩ : Fin 262144) (0 : Fin 1) :=
      funext fun a => Fin.ext (by
        match a with
        | ⟨0, _⟩ => show win0_1.index t (0 : Fin 2) * 1024 + 1 * r.val = t.val * 1024 + r.val; rw [e10]; omega
        | ⟨1, _⟩ => show win0_1.index t (1 : Fin 2) * 1 + 1 * 0 = 0; rw [e11])
    rw [e]
    exact (labels_apply m c _ _ (lab_cls (hy _))).trans (lab_cls (hy _)).symm
  · refine congrArg (colG (xs m c) (ys m c)) (funext fun a => Fin.ext ?_)
    match a with
    | ⟨0, _⟩ => show t.val * 1024 + (j 0).val = win0_2.index t (0 : Fin 2) * 1024 + 1 * (j 0).val; rw [e20]; omega
    | ⟨1, _⟩ =>
      have hj1 : (j 1).val < 1 := (j 1).isLt
      show 0 = win0_2.index t (1 : Fin 2) * 1 + 1 * (j 1).val
      rw [e21]; omega

/-! ## The blocks tile the column -/

theorem mem_blk (t : Fin cfg0.N) (i : S262144x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v2).slice (win0_2.rect t)).set ↔ _
  rw [View.set_slice_whole, Rect.mem_set_unit]
  exact Iff.rfl

/-- Row i of the column lies in block i / 1024. -/
theorem cover (i : S262144x1.Idx) :
    ∃ t : Fin cfg0.N, (cfg0.win 2).flush t = true ∧ i ∈ ((cfg0.win 2).blk t).view.set := by
  have hi0 : (i 0).val < 262144 := idx2_lt0 i
  have hi1 : (i 1).val < 1 := idx2_lt1 i
  have hN : (i 0).val / 1024 < cfg0.N := by
    show (i 0).val / 1024 < grid0.N
    rw [N_0]; omega
  obtain ⟨-, -, -, -, e20, e21⟩ := idx_facts ⟨(i 0).val / 1024, hN⟩
  refine ⟨⟨(i 0).val / 1024, hN⟩, flush0_2 _, (mem_blk _ i).2 (fun a => ?_)⟩
  match a with
  | ⟨0, _⟩ =>
    show win0_2.index ⟨(i 0).val / 1024, hN⟩ (0 : Fin 2) * 1024 ≤ (i 0).val
      ∧ (i 0).val < win0_2.index ⟨(i 0).val / 1024, hN⟩ (0 : Fin 2) * 1024 + 1024
    rw [e20]
    show (i 0).val / 1024 * 1024 ≤ (i 0).val ∧ (i 0).val < (i 0).val / 1024 * 1024 + 1024
    omega
  | ⟨1, _⟩ =>
    show win0_2.index ⟨(i 0).val / 1024, hN⟩ (1 : Fin 2) * 1 ≤ (i 1).val
      ∧ (i 1).val < win0_2.index ⟨(i 0).val / 1024, hN⟩ (1 : Fin 2) * 1 + 1
    rw [e21]; omega

/-- THE COLUMN after the region: the loss of every row. -/
theorem final (c : Dev nD) (hy : ∀ i, (ys m c i).toNat < 1000) :
    (dats m 0 c).arrAt 2 cfg0.N = colG (xs m c) (ys m c) :=
  (dats m 0 c).arrAt_eq_of_cover 2 _ (fun t _ => flushed_eq m c hy t) cover

/-! ## After the region: the column read back as a vector -/

/-- After the region the result is the output column, read back as a vector. -/
theorem tail_eq (c : Dev nD) :
    Pipeline.afterTail₀ cfgs (dats m) 0 (V0 m) [hostOps1] c main_v3
      = shapeCast S262144 ((dats m 0 c).arrAt 2 cfg0.N) shapeCasts_S262144x1_S262144 := by
  unfold Pipeline.afterTail₀
  show StableHlo.after hostOps1 _ (Proc.devRef .tc main_v3) = _
  after_results
  funext i
  show shapeCast S262144 (Pipeline.withArrays spec0 c (V0 m c) (fun w => (dats m 0 c).arrAt w cfg0.N)
    (Proc.devRef .tc (Pipeline.arrRef spec0 2))) shapeCasts_S262144x1_S262144 i = _
  rw [Pipeline.withArrays_arr spec0 launch0.win.arr_inj c (V0 m c) (fun w => (dats m 0 c).arrAt w cfg0.N) 2]

/-- The column of losses read back as a vector is the vector of losses. -/
theorem vec_of_col (x : S262144x1000.Idx → EReal) (y : S262144.Idx → BitVec 32) :
    shapeCast S262144 (colG x y) shapeCasts_S262144x1_S262144 = lossVec x y := by
  funext i
  refine (shapeCast_apply _ _ i (ix2 (⟨(i 0).val, (i 0).isLt⟩ : Fin 262144) (0 : Fin 1)) (by
    rewrite [Shape.rowMajor_val_two, Shape.rowMajor_val_one]
    show (i 0).val * 1 + 0 = (i 0).val
    omega)).trans ?_
  rfl

/-! ## The run, read -/

/-- Where every label is below 1000: every execution of the kernel's program ends with the loss of every row in its
    result, and its arguments as they were. -/
theorem run (hy : ∀ c i, (ys m c i).toNat < 1000) :
    θ_run defs (onTc (τ := τ) (main (F := Ideal))) ⟨m, fun _ => 0, ρ⟩ (fun r => ∀ c : Dev nD,
      r.2.mem ((c : Thread nD τ).loc main_v3) = lossVec (xs m c) (ys m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨(((h c).2 main_v3 (Pipeline.mem_restRefs_of main_v3 (by decide) (by decide))).trans (tail_eq m c)).trans
        ((congrArg (fun A => shapeCast S262144 A shapeCasts_S262144x1_S262144) (final m c (hy c))).trans (vec_of_col _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Whole

end
-- ==== Proof.LibTakeAlong.lean ====
/-
  The host gather that picks ONE entry per row: for an operand of B rows and C columns and one start index per
  row (an array of shape [B, 1, 1]), the gather whose first operand axis is a batching axis paired with the first axis
  of the start indices, whose second operand axis is collapsed and addressed by the start index, with slices of one
  element — what picking, in every row, the entry at that row's index lowers to.  Read at (b, 0) it is the operand at
  row b and at the column the row's start index names, read as a signed integer and clamped into [0, C - 1].
-/
import Idealize.ShloMosaic.Lib.ValueIdx

noncomputable section

namespace Idealize.ShloMosaic.TakeAlong

open Idealize.ShloMosaic Idealize.ShloMosaic.ValueIdx

variable {α : Type}

/-- Those dimension numbers, for an operand [B, C], start indices [B, 1, 1] and a result [B, 1]. -/
abbrev alongDims (B C : Nat)
    (wf : GatherDims.WF ⟨2, ![B, C]⟩ ⟨3, ![B, 1, 1]⟩ ⟨2, ![B, 1]⟩ [] [1] [0] [1] [0] 2 ![1, 1]) :
    GatherDims ⟨2, ![B, C]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- The start-indices index [b, 0, 0] that the result index (b, 0) reads. -/
abbrev alongIdx {B : Nat} (y : (⟨2, ![B, 1]⟩ : Shape).Idx) : (⟨3, ![B, 1, 1]⟩ : Shape).Idx :=
  fun a => match a with
    | ⟨0, _⟩ => ⟨(y 0).val, idx2_lt0 y⟩
    | ⟨1, _⟩ => ⟨(y 1).val, idx2_lt1 y⟩
    | ⟨2, _⟩ => ⟨0, Nat.one_pos⟩

/-- THE GATHER READ AT (b, 0): the operand at row b, at the column the row's start index names, read signed and
    clamped into [0, C - 1]. -/
theorem gather_along_apply {B C w : Nat} (hC : 0 < C)
    (wf : GatherDims.WF ⟨2, ![B, C]⟩ ⟨3, ![B, 1, 1]⟩ ⟨2, ![B, 1]⟩ [] [1] [0] [1] [0] 2 ![1, 1])
    (x : (⟨2, ![B, C]⟩ : Shape).Idx → α) (idx : IVec ⟨3, ![B, 1, 1]⟩ w) (y : (⟨2, ![B, 1]⟩ : Shape).Idx) :
    Host.gather (alongDims B C wf) x idx y
      = x (ix2 (⟨(y 0).val, idx2_lt0 y⟩ : Fin B) (⟨min (idx (alongIdx y)).toInt.toNat (C - 1), by omega⟩ : Fin C)) := by
  unfold Host.gather
  congr 1
  funext a
  refine Fin.ext ?_
  match a with
  | ⟨0, _⟩ =>
    show (alongDims B C wf).start y idx 0 + (alongDims B C wf).batchCoord y 0 + (alongDims B C wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims B C wf).operandBatchingDims from List.mem_singleton.mpr rfl)]
    rfl
  | ⟨1, _⟩ =>
    show (alongDims B C wf).start y idx 1 + (alongDims B C wf).batchCoord y 1 + (alongDims B C wf).offCoord y 1
      = min (idx (alongIdx y)).toInt.toNat (C - 1)
    rw [GatherDims.batchCoord_eq_zero _ _ _ (show (1 : Fin 2) ∉ (alongDims B C wf).operandBatchingDims from
        fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims B C wf).startIndexMap from List.mem_singleton.mpr rfl)]
    have hsi : (alongDims B C wf).siIdx y ⟨List.idxOf (1 : Fin 2) (alongDims B C wf).startIndexMap,
        List.idxOf_lt_length_iff.2 (List.mem_singleton.mpr rfl)⟩ = alongIdx y := by
      funext b; refine Fin.ext ?_
      match b with
      | ⟨0, _⟩ => rfl
      | ⟨1, _⟩ => rfl
      | ⟨2, _⟩ => rfl
    rw [hsi]
    rfl

end Idealize.ShloMosaic.TakeAlong

end
-- ==== Proof.RefRow.lean ====
/-
  The reference's result, read at one row.

  The reference takes the softmax of every row (the row's maximum M folded from -∞, e_c = exp (x_c - M), S = 0 + ∑ e_c,
  p_c = e_c / S), picks the true class's probability with a gather whose start index is the label (a negative label is
  moved up by 1000 first, and the pick is kept only where the index lies in [0, 999]), masks the true class's
  probability to -∞ by a one-hot comparison of the label with the class numbers, takes the maximum of what is left,
  and returns (1 + that maximum) - the picked probability.  At row b, when the row's label is the word of a class k,
  the label is neither moved nor out of range, the gather picks p_k, the mask is "c = k", and the result is
  lossSoftmaxFirst of the row at k.
-/
import proofs.«409022_j78469052498221_3_alg».proof.Proof.RefReadP
import proofs.«409022_j78469052498221_3_alg».proof.Proof.RowLaw
import proofs.«409022_j78469052498221_3_alg».proof.Proof.Consts
import proofs.«409022_j78469052498221_3_alg».proof.Proof.Label
import proofs.«409022_j78469052498221_3_alg».proof.Proof.LibTakeAlong
import proofs.«409022_j78469052498221_3_alg».proof.Proof.Spec
import Idealize.ShloMosaic.Lib.ValueIdx
import Idealize.ShloMosaic.PureOps.Ideal.Laws
import Idealize.ShloMosaic.PureOps.Reduce

noncomputable section

namespace Cert.ReferenceIdeal.RefRow

open Cert.ReferenceIdeal Cert.ReferenceIdeal.Gen Cert.ReferenceIdeal.ReadP
open Idealize.ShloMosaic Idealize.ShloMosaic.ValueIdx Idealize.ShloMosaic.TakeAlong Cert.Margin

/-- Row b of the scores. -/
abbrev row (x : FVec Ideal S262144x1000 .f32) (b : Fin 262144) : Fin 1000 → EReal := fun c => x (ix2 b c)

/-! ## The constants -/

theorem cst_bot (i : S_.Idx) : val_main_cst (F := Ideal) i = (⊥ : EReal) := by
  rw [val_main_cst_apply, Ideal.ofBits_def, ofBits_neg_inf]
theorem cst0_bot (i : S_.Idx) : val_main_cst_0 (F := Ideal) i = (⊥ : EReal) := by
  rw [val_main_cst_0_apply, Ideal.ofBits_def, ofBits_neg_inf]
theorem cst2_bot (i : S_.Idx) : val_main_cst_2 (F := Ideal) i = (⊥ : EReal) := by
  rw [val_main_cst_2_apply, Ideal.ofBits_def, ofBits_neg_inf]
theorem cst3_bot (i : S_.Idx) : val_main_cst_3 (F := Ideal) i = (⊥ : EReal) := by
  rw [val_main_cst_3_apply, Ideal.ofBits_def, ofBits_neg_inf]
theorem cst1_zero (i : S_.Idx) : val_main_cst_1 (F := Ideal) i = (0 : EReal) := by
  rw [val_main_cst_1_apply, Ideal.ofBits_def, ofBits_zero]
theorem cst4_one (i : S_.Idx) : val_main_cst_4 (F := Ideal) i = (1 : EReal) := by
  rw [val_main_cst_4_apply, Ideal.ofBits_def, ofBits_one]

/-! ## A maximum over the classes -/

theorem hR : S262144x1000.Reduces [1] S262144 := by decide

/-- The index a reduction over the classes reads for row b and class c. -/
theorem lift_eq (b : Fin 262144) (c : Fin 1000) : hR.lift (ix1 b) c = ix2 b c :=
  funext fun a => Fin.ext (by match a with | ⟨0, _⟩ => rfl | ⟨1, _⟩ => rfl)

/-- A host maximum over the classes that starts from -∞, at row b: the fold of max over the row. -/
theorem hostmax_apply (v : S262144x1000.Idx → EReal) (init : S_.Idx → EReal) (hinit : ∀ i, init i = ⊥) (b : Fin 262144) :
    Host.reduce (FloatOps.maximumf (F := Ideal) (φ := .f32)) v init reducesTo_S262144x1000_S262144_d1 h_S_ (ix1 b)
      = Finset.univ.fold max ⊥ (fun c : Fin 1000 => v (ix2 b c)) := by
  rw [Host.reduce_eq_fold_single (FloatOps.maximumf (F := Ideal) (φ := .f32)) v init reducesTo_S262144x1000_S262144_d1 hR h_S_ (ix1 b), hinit]
  exact congrArg (fun f => Finset.univ.fold max (⊥ : EReal) f) (funext fun c => congrArg v (lift_eq b c))

/-! ## The softmax of a row -/

theorem rowmax_ref (x : FVec Ideal S262144x1000 .f32) (b : Fin 262144) :
    val_main_v2 (F := Ideal) x (ix1 b) = rowMax (row x b) := by
  rw [val_main_v2_apply, val_main_v1_apply, cst0_bot]
  unfold val_main_v0
  rw [hostmax_apply x _ cst_bot b, Ideal.maximumf_def]
  exact bot_sup_eq _

theorem shift_ref (x : FVec Ideal S262144x1000 .f32) (b : Fin 262144) (c : Fin 1000) :
    val_main_v4 (F := Ideal) x (ix2 b c) = rowMax (row x b) := by
  rw [val_main_v4_apply, val_main_v3_apply]
  have e : idx_main_v3 (idx_main_v4 (ix2 b c)) = ix1 b := funext fun a => Fin.ext (by match a with | ⟨0, _⟩ => rfl)
  rw [e]
  exact rowmax_ref x b

theorem exp_ref (x : FVec Ideal S262144x1000 .f32) (b : Fin 262144) (c : Fin 1000) :
    val_main_v6 (F := Ideal) x (ix2 b c) = Ideal.exp (x (ix2 b c) - rowMax (row x b)) := by
  rw [val_main_v6_apply, val_main_v5_apply, shift_ref, Ideal.hostUnary_exp_def, Ideal.subf_def]

theorem den_ref (x : FVec Ideal S262144x1000 .f32) (b : Fin 262144) :
    val_main_v7 (F := Ideal) x (ix1 b) = rowDen (row x b) := by
  rw [val_main_v7_apply, cst1_zero, zero_add]
  unfold rowDen
  refine Finset.sum_congr rfl (fun c _ => ?_)
  have e : idx_main_v7 (ix1 b) c = ix2 b c :=
    funext fun a => Fin.ext (by match a with | ⟨0, _⟩ => rfl | ⟨1, _⟩ => rfl)
  rw [e]
  exact exp_ref x b c

/-- The probability of class c in row b. -/
theorem prob_ref (x : FVec Ideal S262144x1000 .f32) (b : Fin 262144) (c : Fin 1000) :
    val_main_v10 (F := Ideal) x (ix2 b c)
      = Ideal.div (Ideal.exp (x (ix2 b c) - rowMax (row x b))) (rowDen (row x b)) := by
  rw [val_main_v10_apply, Ideal.hostDivf_def, exp_ref, val_main_v9_apply, val_main_v8_apply]
  have e : idx_main_v8 (idx_main_v9 (ix2 b c)) = ix1 b := funext fun a => Fin.ext (by match a with | ⟨0, _⟩ => rfl)
  rw [e, den_ref]

/-! ## The label of a row, where it is the word of a class -/

section Label
variable (y : IVec S262144 32) (b : Fin 262144) (k : Fin 1000) (hk : y (ix1 b) = lab k)
include hk

/-- The label as a column entry. -/
theorem col_ref (j : S262144x1.Idx) (hj : (j 0).val = b.val) : val_main_v11 (F := Ideal) y j = lab k := by
  rw [val_main_v11_apply]
  have e : idx_main_v11 j = ix1 b := funext fun a => Fin.ext (by match a with | ⟨0, _⟩ => exact hj)
  rw [e, hk]

/-- A label that is a class is not negative, so it is not moved up by 1000. -/
theorem start_ref (j : S262144x1.Idx) (hj : (j 0).val = b.val) : val_main_call0_v4 (F := Ideal) y j = lab k := by
  rw [val_main_call0_v4_apply, val_main_call0_v1_apply, col_ref y b k hk j hj, val_main_call0_v0_apply,
    val_main_call0_c_apply, lab_not_slt_zero]
  exact select_zero _ _

/-- The start index of row b's pick. -/
theorem start3_ref (j : S262144x1x1.Idx) (hj : (j 0).val = b.val) : val_main_call0_v5 (F := Ideal) y j = lab k := by
  rw [val_main_call0_v5_apply]
  exact start_ref y b k hk _ (by
    have h1 : (j 1).val < 1 := (j 1).isLt
    have h2 : (j 2).val < 1 := (j 2).isLt
    show (((j 0).val * 1 + (j 1).val) * 1 + (j 2).val) / 1 = b.val
    omega)

/-- It lies in [0, 999]. -/
theorem inrange_ref (j : S262144x1x1.Idx) (hj : (j 0).val = b.val) : val_main_call0_v11 (F := Ideal) y j = 1#1 := by
  rw [val_main_call0_v11_apply, val_main_call0_v7_apply, val_main_call0_v10_apply, start3_ref y b k hk j hj,
    val_main_call0_v6_apply, val_main_call0_c_2_apply, val_main_call0_v9_apply, val_main_call0_v8_apply,
    val_main_call0_c_1_apply, lab_sge_zero, lab_sle_999]
  rfl

end Label

/-- A fold of "and" from 1 over bits that are all 1 is 1. -/
theorem fold_andi_one {ι : Type} (s : Finset ι) (f : ι → BitVec 1) (h : ∀ i ∈ s, f i = 1#1) :
    s.fold IntOp.andi 1#1 f = 1#1 := by
  classical
  induction s using Finset.induction_on with
  | empty => rfl
  | insert a s ha ih =>
    rw [Finset.fold_insert ha, h a (Finset.mem_insert_self a s), ih (fun i hi => h i (Finset.mem_insert_of_mem hi))]
    rfl

theorem hR3 : S262144x1x1.Reduces [2] S262144x1 := by decide

section Pick
variable (x : FVec Ideal S262144x1000 .f32) (y : IVec S262144 32) (b : Fin 262144) (k : Fin 1000)
  (hk : y (ix1 b) = lab k)
include hk

/-- The pick of row b is kept. -/
theorem kept_ref : val_main_call0_v12 (F := Ideal) y (ix2 b (0 : Fin 1)) = 1#1 := by
  unfold val_main_call0_v12
  rw [Host.reduce_eq_fold_single IntOp.andi _ _ reducesTo_S262144x1x1_S262144x1_d2 hR3 h_S_ (ix2 b (0 : Fin 1)),
    val_main_call0_c_3_apply]
  exact fold_andi_one _ _ (fun i _ => inrange_ref y b k hk _ rfl)

/-- THE PICK: the true class's probability. -/
theorem picked_ref : val_main_v13 (F := Ideal) x y (ix1 b)
    = Ideal.div (Ideal.exp (x (ix2 b k) - rowMax (row x b))) (rowDen (row x b)) := by
  rw [val_main_v13_apply, val_main_v12_apply]
  have e : idx_main_v13 (ix1 b) = ix2 b (0 : Fin 1) :=
    funext fun a => Fin.ext (by
      match a with
      | ⟨0, _⟩ => show b.val / 1 = b.val; omega
      | ⟨1, _⟩ => rfl)
  rw [e, kept_ref y b k hk, select_one]
  unfold val_main_call0_v13
  show Host.gather (alongDims 262144 1000 gather_S262144x1000_S262144x1x1_S262144x1_n_1_0_0_1_2_11_wf)
    (val_main_v10 (F := Ideal) x) (val_main_call0_v5 (F := Ideal) y) (ix2 b (0 : Fin 1)) = _
  rw [gather_along_apply (by decide)]
  have hs : val_main_call0_v5 (F := Ideal) y (alongIdx (ix2 b (0 : Fin 1))) = lab k := start3_ref y b k hk _ rfl
  refine (congrArg (val_main_v10 (F := Ideal) x) (?_ : _ = ix2 b k)).trans (prob_ref x b k)
  funext a
  match a with
  | ⟨0, _⟩ => exact Fin.ext rfl
  | ⟨1, _⟩ =>
    refine Fin.ext ?_
    show min (val_main_call0_v5 (F := Ideal) y (alongIdx (ix2 b (0 : Fin 1)))).toInt.toNat (1000 - 1) = k.val
    rw [hs, lab_toInt, Int.toNat_natCast]
    have := k.isLt
    omega

/-- The one-hot mask of row b: "class c is the label". -/
theorem onehot_ref (c : Fin 1000) : val_main_v14 (F := Ideal) y (ix2 b c) = IntOp.cmpi .eq (lab k) (lab c) := by
  rw [val_main_v14_apply, val_main_call1_v2_apply, val_main_call1_v0_apply, val_main_call1_v3_apply,
    val_main_call1_v1_apply]
  have e : idx_main_call1_v0 (idx_main_call1_v2 (ix2 b c)) = ix1 b :=
    funext fun a => Fin.ext (by match a with | ⟨0, _⟩ => rfl)
  rw [e, hk]

/-- The probabilities with the true class masked to -∞. -/
theorem masked_ref (c : Fin 1000) : val_main_v15 (F := Ideal) x y (ix2 b c)
    = if c = k then ⊥ else Ideal.div (Ideal.exp (x (ix2 b c) - rowMax (row x b))) (rowDen (row x b)) := by
  rw [val_main_v15_apply, onehot_ref y b k hk c, select_onehot', val_main_call2_v1_apply, val_main_call2_v0_apply,
    cst2_bot, prob_ref]

/-- THE RESULT AT ROW b. -/
theorem ref_apply : val_main_v19 (F := Ideal) x y (ix1 b) = lossSoftmaxFirst (row x b) k := by
  rw [val_main_v19_apply, val_main_v18_apply, val_main_v17_apply, cst4_one, picked_ref x y b k hk,
    Ideal.subf_def, Ideal.addf_def]
  unfold val_main_v16
  rw [hostmax_apply _ _ cst3_bot b]
  unfold lossSoftmaxFirst
  exact congrArg (fun f => (1 + Finset.univ.fold max (⊥ : EReal) f) - _) (funext fun c => masked_ref x y b k hk c)

end Pick

/-- THE WHOLE RESULT: on real scores and labels below 1000, the reference computes the loss of every row. -/
theorem ref_vec (x : FVec Ideal S262144x1000 .f32) (y : IVec S262144 32) (hx : ∀ i, ∃ r : ℝ, x i = (r : EReal))
    (hy : ∀ i, (y i).toNat < 1000) : val_main_v19 (F := Ideal) x y = lossVec x y := by
  funext i
  obtain ⟨b, rfl⟩ : ∃ b : Fin 262144, i = ix1 b := ⟨i 0, eq_ix1 i⟩
  rw [ref_apply x y b (cls (y (ix1 b))) (lab_cls (hy _))]
  exact (row_law x hx b _).symm

end Cert.ReferenceIdeal.RefRow

end
-- ==== Proof.lean ====
/-
  A max-margin loss on softmax probabilities, two ways.

  Inputs: 262144 rows of 1000 class scores and one label per row.  For a row x with label k, let M = max_c x_c,
  S = ∑_c exp (x_c - M) and p_c = exp (x_c - M) / S.  The reference returns (1 + max_{c ≠ k} p_c) - p_k: it masks p_k to
  -∞ by a one-hot comparison and picks p_k by a gather at the label.  The kernel never forms p: on blocks of 1024 rows
  it takes max_{c ≠ k} x_c (the true class masked to a finite stand-in, named -∞ at the ideal instance) and x_k (a masked
  sum), and returns 1 + (exp (max_{c ≠ k} x_c - M) - exp (x_k - M)) · (1 / S).  Since t ↦ exp (t - M) / S is monotone it
  commutes with the maximum over the wrong classes, so on real scores the two results are equal (Proof/RowLaw.lean).

  The precondition says that the scores are finite and the labels are classes, 0 ≤ y < 1000 (Proof/PreFacts.lean).
  Outside that range the two programs differ (the kernel clamps the label; the reference's one-hot row is empty and its
  gather wraps a negative label or returns its fill value), so the range is used on both sides: it makes the kernel's
  clamp the identity and the reference's pick the true class's probability.

  Kernel side: the stored value at a row (Proof/KernelRow.lean), from blocks to the whole column and the host
  operations around the region (Proof/KernelValue.lean).  Reference side: its result at a row and as a whole
  (Proof/RefRow.lean, over the run and the stage-by-stage reading in Proof/RefRunP.lean and Proof/RefReadP.lean).
-/
import proofs.«409022_j78469052498221_3_alg».proof.Defs
import proofs.«409022_j78469052498221_3_alg».proof.Proof.Gen.Kernel
import proofs.«409022_j78469052498221_3_alg».proof.Proof.Gen.Kernel.Skeleton
import proofs.«409022_j78469052498221_3_alg».proof.Proof.Gen.Kernel.Launch
import proofs.«409022_j78469052498221_3_alg».proof.Proof.Gen.Kernel.Points
import proofs.«409022_j78469052498221_3_alg».proof.Proof.Gen.Kernel.Frame
import proofs.«409022_j78469052498221_3_alg».proof.Proof.Gen.KernelIdeal
import proofs.«409022_j78469052498221_3_alg».proof.Proof.Gen.KernelIdeal.Skeleton
import proofs.«409022_j78469052498221_3_alg».proof.Proof.Gen.KernelIdeal.Launch
import proofs.«409022_j78469052498221_3_alg».proof.Proof.Gen.KernelIdeal.Points
import proofs.«409022_j78469052498221_3_alg».proof.Proof.Gen.KernelIdeal.Frame
import proofs.«409022_j78469052498221_3_alg».proof.Proof.Gen.ReferenceIdeal
import proofs.«409022_j78469052498221_3_alg».proof.Proof.Gen.Pre_finite_inputs
import proofs.«409022_j78469052498221_3_alg».proof.Proof.PreFacts
import proofs.«409022_j78469052498221_3_alg».proof.Proof.KernelValue
import proofs.«409022_j78469052498221_3_alg».proof.Proof.RefRow
import Idealize.ShloMosaic.Adequacy
import Idealize.ShloMosaic.Init
import Idealize.ShloMosaic.PureOps.IdealRules

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the mask fill is named -∞. -/
theorem preserves : Cert.preserves_Kernel_KernelIdeal :=
  IdealRules.named_const.statement Cert.KernelIdeal.κ "neg_big" .f32 0xFF333332#32 ⊥ rfl

/-- On finite scores and labels that are classes, both programs end with the loss of every row. -/
theorem algebraic : Cert.algebraic_KernelIdeal_ReferenceIdeal := by
  intro m ρ m' ρ' hpre hagree
  have hp := fun c => Cert.Margin.pre_read _ _ (hpre c)
  refine ⟨fun c => Cert.Margin.lossVec (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Whole.run m ρ (fun c => (hp c).2), ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v19_eq, (hagree c).1, (hagree c).2]
  exact Cert.ReferenceIdeal.RefRow.ref_vec _ _ (hp c).1 (hp c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
